-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S1024x10 : Shape := ⟨2, ![1024, 10]⟩
abbrev S1024x128 : Shape := ⟨2, ![1024, 128]⟩
abbrev S1x128 : Shape := ⟨2, ![1, 128]⟩

abbrev nBuf : Space → Nat
  | .hbm => 8
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x128, .f32⟩
  | .hbm, ⟨4, _⟩ => ⟨S10x128x1, .f32⟩
  | .hbm, ⟨5, _⟩ => ⟨S10x128x128, .f32⟩
  | .hbm, ⟨6, _⟩ => ⟨S1280x128, .f32⟩
  | .hbm, ⟨7, _⟩ => ⟨S131072x128, .f32⟩
  | .local _ .vmem, ⟨0, _⟩ => ⟨S1024x10, .f32⟩
  | .local _ .vmem, ⟨1, _⟩ => ⟨S1024x10, .f32⟩
  | .local _ .vmem, ⟨2, _⟩ => ⟨S1280x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S1024x10_S128x10_0_0 : ∀ a, (![0, 0] : Fin 2 → Nat) a + S128x10.size a ≤ S1024x10.size a
  h_S128x10 : 0 < S128x10.numel
  transposes_S128x10_p1_0_S10x128 : S128x10.Transposes [1, 0] S10x128
  slices_S10x128_o0_0_S1x128 : S10x128.Slices ![0, 0] S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  slices_S10x128_o1_0_S1x128 : S10x128.Slices ![1, 0] S1x128
  inb_S1280x128_S128x128_128_0 : ∀ a, (![128, 0] : Fin 2 → Nat) a + S128x128.size a ≤ S1280x128.size a
  slices_S10x128_o2_0_S1x128 : S10x128.Slices ![2, 0] S1x128
  inb_S1280x128_S128x128_256_0 : ∀ a, (![256, 0] : Fin 2 → Nat) a + S128x128.size a ≤ S1280x128.size a
  slices_S10x128_o3_0_S1x128 : S10x128.Slices ![3, 0] S1x128
  inb_S1280x128_S128x128_384_0 : ∀ a, (![384, 0] : Fin 2 → Nat) a + S128x128.size a ≤ S1280x128.size a
  slices_S10x128_o4_0_S1x128 : S10x128.Slices ![4, 0] S1x128
  inb_S1280x128_S128x128_512_0 : ∀ a, (![512, 0] : Fin 2 → Nat) a + S128x128.size a ≤ S1280x128.size a
  slices_S10x128_o5_0_S1x128 : S10x128.Slices ![5, 0] S1x128
  inb_S1280x128_S128x128_640_0 : ∀ a, (![640, 0] : Fin 2 → Nat) a + S128x128.size a ≤ S1280x128.size a
  slices_S10x128_o6_0_S1x128 : S10x128.Slices ![6, 0] S1x128
  inb_S1280x128_S128x128_768_0 : ∀ a, (![768, 0] : Fin 2 → Nat) a + S128x128.size a ≤ S1280x128.size a
  slices_S10x128_o7_0_S1x128 : S10x128.Slices ![7, 0] S1x128
  inb_S1280x128_S128x128_896_0 : ∀ a, (![896, 0] : Fin 2 → Nat) a + S128x128.size a ≤ S1280x128.size a
  slices_S10x128_o8_0_S1x128 : S10x128.Slices ![8, 0] S1x128
  inb_S1280x128_S128x128_1024_0 : ∀ a, (![1024, 0] : Fin 2 → Nat) a + S128x128.size a ≤ S1280x128.size a
  slices_S10x128_o9_0_S1x128 : S10x128.Slices ![9, 0] S1x128
  inb_S1280x128_S128x128_1152_0 : ∀ a, (![1152, 0] : Fin 2 → Nat) a + S128x128.size a ≤ S1280x128.size a
  inb_S1024x128_S128x128_0_0 : ∀ a, (![0, 0] : Fin 2 → Nat) a + S128x128.size a ≤ S1024x128.size a
  inb_S1024x10_S128x10_128_0 : ∀ a, (![128, 0] : Fin 2 → Nat) a + S128x10.size a ≤ S1024x10.size a
  inb_S1024x128_S128x128_128_0 : ∀ a, (![128, 0] : Fin 2 → Nat) a + S128x128.size a ≤ S1024x128.size a
  inb_S1024x10_S128x10_256_0 : ∀ a, (![256, 0] : Fin 2 → Nat) a + S128x10.size a ≤ S1024x10.size a
  inb_S1024x128_S128x128_256_0 : ∀ a, (![256, 0] : Fin 2 → Nat) a + S128x128.size a ≤ S1024x128.size a
  inb_S1024x10_S128x10_384_0 : ∀ a, (![384, 0] : Fin 2 → Nat) a + S128x10.size a ≤ S1024x10.size a
  inb_S1024x128_S128x128_384_0 : ∀ a, (![384, 0] : Fin 2 → Nat) a + S128x128.size a ≤ S1024x128.size a
  inb_S1024x10_S128x10_512_0 : ∀ a, (![512, 0] : Fin 2 → Nat) a + S128x10.size a ≤ S1024x10.size a
  inb_S1024x128_S128x128_512_0 : ∀ a, (![512, 0] : Fin 2 → Nat) a + S128x128.size a ≤ S1024x128.size a
  inb_S1024x10_S128x10_640_0 : ∀ a, (![640, 0] : Fin 2 → Nat) a + S128x10.size a ≤ S1024x10.size a
  inb_S1024x128_S128x128_640_0 : ∀ a, (![640, 0] : Fin 2 → Nat) a + S128x128.size a ≤ S1024x128.size a
  inb_S1024x10_S128x10_768_0 : ∀ a, (![768, 0] : Fin 2 → Nat) a + S128x10.size a ≤ S1024x10.size a
  inb_S1024x128_S128x128_768_0 : ∀ a, (![768, 0] : Fin 2 → Nat) a + S128x128.size a ≤ S1024x128.size a
  inb_S1024x10_S128x10_896_0 : ∀ a, (![896, 0] : Fin 2 → Nat) a + S128x10.size a ≤ S1024x10.size a
  inb_S1024x128_S128x128_896_0 : ∀ a, (![896, 0] : Fin 2 → Nat) a + S128x128.size a ≤ S1024x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S131072x10.size a
  hwx0_0 : ∀ i : grid0.Coords, EltTy.bits .f32 = 32 ∨ (Rect.block (s := S131072x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The result both programs compute, as ONE function of the three argument arrays, index by index, on the extended reals.

  For points x : [131072, 10], grid points p : [128, 10] and a matrix c : [128, 128],

      G x p c (n, j) = Σ_{k < 128}  exp( −Σ_{d < 10} |x(n,d) − p(k,d)| ) · c(k, j):

  the product Laplace kernel of x against p, multiplied on the right by c.

  Also here, the three scalar laws that join the two programs' spellings of it:
  • |a − b| = |b − a| holds on ALL extended reals (the kernel subtracts the point from the grid point, the reference the
    other way round): off the two corners ∞ − ∞ it is the reals' law, and at those corners both differences are −∞;
  • a sum of ten terms added left to right is the sum over the ten indices (addition on the extended reals is
    commutative and associative);
  • dividing by the literal 1.0 changes nothing.
-/
import Idealize.ShloMosaic.PureOps.Ideal
import Idealize.ShloMosaic.PureOps.Ideal.Laws
import Idealize.ShloMosaic.Lib.ValueIdx

noncomputable section

namespace Cert.Laplace

open Idealize.ShloMosaic Idealize.ShloMosaic.ValueIdx

abbrev SX : Shape := ⟨2, ![131072, 10]⟩
abbrev SP : Shape := ⟨2, ![128, 10]⟩
abbrev SC : Shape := ⟨2, ![128, 128]⟩
abbrev SO : Shape := ⟨2, ![131072, 128]⟩

/-- The absolute difference as both programs compute it at the ideal values: the larger of a − b and its negation. -/
def adiff (a b : EReal) : EReal := max (a - b) (-(a - b))

/-- |a − b| = |b − a| on every pair of extended reals. Both finite: the reals' law. One infinite, or two opposite
    infinities: one difference is +∞ and the other −∞, so each maximum is +∞. Two equal infinities: both differences
    are −∞ (the extended reals' ∞ − ∞), each maximum +∞ again. -/
theorem adiff_comm (a b : EReal) : adiff a b = adiff b a := by
  unfold adiff
  induction a <;> induction b
  all_goals (try simp)
  rw [← EReal.coe_sub, ← EReal.coe_sub, ← EReal.coe_neg, ← EReal.coe_neg, neg_sub, neg_sub, max_comm]

/-- The L1 distance between row n of x and row k of p. -/
def l1dist (x : SX.Idx → EReal) (p : SP.Idx → EReal) (n : Fin 131072) (k : Fin 128) : EReal :=
  ∑ d : Fin 10, adiff (x (ix2 n d)) (p (ix2 k d))

/-- The result array: the Laplace kernel matrix of x against p, times c. -/
def G (x : SX.Idx → EReal) (p : SP.Idx → EReal) (c : SC.Idx → EReal) : SO.Idx → EReal :=
  fun i => ∑ k : Fin 128, Ideal.exp (-(l1dist x p (i 0) k)) * c (ix2 k (i 1))

/-- Ten terms added left to right are the sum over the ten indices. -/
theorem sum_ten (t : Fin 10 → EReal) :
    t 0 + t 1 + t 2 + t 3 + t 4 + t 5 + t 6 + t 7 + t 8 + t 9 = ∑ d : Fin 10, t d := by
  simp only [Fin.sum_univ_succ, Fin.sum_univ_zero, add_zero, add_assoc]
  rfl

/-- The word 0x3F800000 is the float 1.0. -/
theorem ofBits_one : Ideal.ofBits .f32 0x3F800000#32 = 1 := by
  simp [Ideal.ofBits, Ideal.ieee, -EReal.coe_mul]; norm_num

/-- Dividing by 1.0 is the identity on the extended reals. -/
theorem div_one (a : EReal) : Ideal.div a (Ideal.ofBits .f32 0x3F800000#32) = a := by
  rw [ofBits_one, show (1 : EReal) = ((1 : ℝ) : EReal) from rfl, Ideal.div_coe one_ne_zero]
  simp

/-- Subtracting from zero negates. -/
theorem zero_sub' (a : EReal) : (0 : EReal) - a = -a := by
  rw [sub_eq_add_neg, zero_add]

end Cert.Laplace

end
-- ==== Proof.Chunk.lean ====
/-
  The kernel body, one 128-row chunk at a time.

  At a grid point the body treats its [1024, 10] block of points in eight chunks of 128 rows. For a chunk xc : [128, 10] it
  transposes it, and for each coordinate d < 10 takes row d of the transpose (the chunk's d-th coordinates, one per
  lane n), spreads it down the 128 sublanes, subtracts it from the d-th [128, 128] slab of the grid-point table (whose
  entry (k, n) is grid point k's d-th coordinate, whatever the lane), and takes absolute values; the ten slabs are added
  left to right, negated by subtracting from zero, exponentiated, and the [128(k), 128(n)] result is contracted on its
  FIRST axis against the matrix c: the stored value at (n, j) is Σ_k exp(−Σ_d |p(k,d) − xc(n,d)|) · c(k, j).

  `chunk` is that computation as one function of the loaded values, for any float instance; the eight stored values of the
  body are `chunk` of the eight chunks (`stored0` … `stored7`: the same operations, cut differently into the generated
  payload definitions), and `chunk_apply` reads it at an index at the ideal values.
-/
import proofs.«122928_g10067403342211_week1_w1_198_12_alg».proof.Proof.Gen.KernelIdeal.Frame
import proofs.«122928_g10067403342211_week1_w1_198_12_alg».proof.Proof.Spec
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.Laplace

section AnyInstance

variable {F : FTy → Type} [FloatOps F]

/-- One coordinate's slab: |table slab − (row `off` of the transposed chunk, spread down the sublanes)|. -/
def term (xt : FVec F S10x128 .f32) (off : Fin 2 → Nat) (hs : S10x128.Slices off S1x128) (pb : Vec F S128x128 .f32) :
    FVec F S128x128 .f32 :=
  absf (subf (shapeCast S128x128 pb shapeCasts_S128x128_S128x128)
    (broadcastTo S128x128 (extractStridedSlice S1x128 off xt hs) broadcasts_S1x128_S128x128))

/-- What the body stores for one chunk `xc` of 128 points, from the matrix `c` and the table's ten slabs. -/
def chunk (c : Vec F S128x128 .f32) (xc : Vec F S128x10 .f32) (p0 p1 p2 p3 p4 p5 p6 p7 p8 p9 : Vec F S128x128 .f32) : FVec F S128x128 .f32 :=
  matmul dot_S128x128_S128x128_S128x128_0_0_1_1_n_n none
    (exp (subf (broadcast S128x128 (Scalar.ofBits .f32 0x00000000#32))
      (addf (addf (addf (addf (addf (addf (addf (addf (addf (term (transpose S10x128 [1, 0] xc transposes_S128x10_p1_0_S10x128) ![0, 0] slices_S10x128_o0_0_S1x128 p0)
        (term (transpose S10x128 [1, 0] xc transposes_S128x10_p1_0_S10x128) ![1, 0] slices_S10x128_o1_0_S1x128 p1))
        (term (transpose S10x128 [1, 0] xc transposes_S128x10_p1_0_S10x128) ![2, 0] slices_S10x128_o2_0_S1x128 p2))
        (term (transpose S10x128 [1, 0] xc transposes_S128x10_p1_0_S10x128) ![3, 0] slices_S10x128_o3_0_S1x128 p3))
        (term (transpose S10x128 [1, 0] xc transposes_S128x10_p1_0_S10x128) ![4, 0] slices_S10x128_o4_0_S1x128 p4))
        (term (transpose S10x128 [1, 0] xc transposes_S128x10_p1_0_S10x128) ![5, 0] slices_S10x128_o5_0_S1x128 p5))
        (term (transpose S10x128 [1, 0] xc transposes_S128x10_p1_0_S10x128) ![6, 0] slices_S10x128_o6_0_S1x128 p6))
        (term (transpose S10x128 [1, 0] xc transposes_S128x10_p1_0_S10x128) ![7, 0] slices_S10x128_o7_0_S1x128 p7))
        (term (transpose S10x128 [1, 0] xc transposes_S128x10_p1_0_S10x128) ![8, 0] slices_S10x128_o8_0_S1x128 p8))
        (term (transpose S10x128 [1, 0] xc transposes_S128x10_p1_0_S10x128) ![9, 0] slices_S10x128_o9_0_S1x128 p9))))
    c (constant S128x128 .f32 0x00000000#32)

/-- Rows 0–127 of the block: the body's stored value there is the chunk function. -/
theorem stored0 (c : Vec F S128x128 .f32) (xc : Vec F S128x10 .f32) (p0 p1 p2 p3 p4 p5 p6 p7 p8 p9 : Vec F S128x128 .f32) :
    k0_pay4 c (k0_pay1 xc) (k0_pay2 xc p0 p1 p2 p3 p4) (k0_pay3 xc p5) p6 p7 p8 p9 = chunk c xc p0 p1 p2 p3 p4 p5 p6 p7 p8 p9 := rfl

/-- Rows 128–255 of the block: the body's stored value there is the chunk function. -/
theorem stored1 (c : Vec F S128x128 .f32) (xc : Vec F S128x10 .f32) (p0 p1 p2 p3 p4 p5 p6 p7 p8 p9 : Vec F S128x128 .f32) :
    k0_pay10 c (k0_pay5 xc) (k0_pay8 (k0_pay5 xc) (k0_pay6 xc p0) (k0_pay7 xc) p1 p2 p3 p4 p5 p6) (k0_pay9 (k0_pay5 xc) p7) p8 p9 = chunk c xc p0 p1 p2 p3 p4 p5 p6 p7 p8 p9 := rfl

/-- Rows 256–383 of the block: the body's stored value there is the chunk function. -/
theorem stored2 (c : Vec F S128x128 .f32) (xc : Vec F S128x10 .f32) (p0 p1 p2 p3 p4 p5 p6 p7 p8 p9 : Vec F S128x128 .f32) :
    k0_pay16 c (k0_pay13 (k0_pay11 xc) (k0_pay12 xc p0 p1 p2) p3 p4 p5 p6 p7 p8) (k0_pay14 p9) (k0_pay15 (k0_pay11 xc)) = chunk c xc p0 p1 p2 p3 p4 p5 p6 p7 p8 p9 := rfl

/-- Rows 384–511 of the block: the body's stored value there is the chunk function. -/
theorem stored3 (c : Vec F S128x128 .f32) (xc : Vec F S128x10 .f32) (p0 p1 p2 p3 p4 p5 p6 p7 p8 p9 : Vec F S128x128 .f32) :
    k0_pay20 c (k0_pay17 xc) (k0_pay18 xc p0 p1 p2 p3) (k0_pay19 xc p4) p5 p6 p7 p8 p9 = chunk c xc p0 p1 p2 p3 p4 p5 p6 p7 p8 p9 := rfl

/-- Rows 512–639 of the block: the body's stored value there is the chunk function. -/
theorem stored4 (c : Vec F S128x128 .f32) (xc : Vec F S128x10 .f32) (p0 p1 p2 p3 p4 p5 p6 p7 p8 p9 : Vec F S128x128 .f32) :
    k0_pay24 c (k0_pay21 xc) (k0_pay22 (k0_pay21 xc) p0 p1 p2 p3 p4 p5) (k0_pay23 (k0_pay21 xc) p6) p7 p8 p9 = chunk c xc p0 p1 p2 p3 p4 p5 p6 p7 p8 p9 := rfl

/-- Rows 640–767 of the block: the body's stored value there is the chunk function. -/
theorem stored5 (c : Vec F S128x128 .f32) (xc : Vec F S128x10 .f32) (p0 p1 p2 p3 p4 p5 p6 p7 p8 p9 : Vec F S128x128 .f32) :
    k0_pay30 c (k0_pay25 xc) (k0_pay27 (k0_pay25 xc) (k0_pay26 xc p0 p1) p2 p3 p4 p5 p6 p7) (k0_pay28 p8) (k0_pay29 (k0_pay25 xc)) p9 = chunk c xc p0 p1 p2 p3 p4 p5 p6 p7 p8 p9 := rfl

/-- Rows 768–895 of the block: the body's stored value there is the chunk function. -/
theorem stored6 (c : Vec F S128x128 .f32) (xc : Vec F S128x10 .f32) (p0 p1 p2 p3 p4 p5 p6 p7 p8 p9 : Vec F S128x128 .f32) :
    k0_pay35 c (k0_pay34 (k0_pay31 xc) (k0_pay32 xc p0 p1 p2) (k0_pay33 xc p3) p4 p5 p6 p7 p8 p9) (constant S128x128 .f32 0x00000000#32) = chunk c xc p0 p1 p2 p3 p4 p5 p6 p7 p8 p9 := rfl

/-- Rows 896–1023 of the block: the body's stored value there is the chunk function. -/
theorem stored7 (c : Vec F S128x128 .f32) (xc : Vec F S128x10 .f32) (p0 p1 p2 p3 p4 p5 p6 p7 p8 p9 : Vec F S128x128 .f32) :
    k0_pay39 c (k0_pay36 xc) (k0_pay37 xc p0 p1 p2 p3 p4) (k0_pay38 xc p5) p6 p7 p8 p9 = chunk c xc p0 p1 p2 p3 p4 p5 p6 p7 p8 p9 := rfl

end AnyInstance

section AtIdeal

/-- The dot's index maps: it contracts the FIRST axis of both operands, so at output (n, j) and contraction index k the
    left operand is read at (k, n) and the right at (k, j). -/
theorem lhs_axis0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
theorem lhs_axis1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_axis0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
theorem rhs_axis1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- One coordinate's slab at (k, n): |slab(k, n) − (transposed chunk)(d, n)|, d the row the slice takes. -/
theorem term_apply (xt : FVec Ideal S10x128 .f32) (o : ℕ) (hs : S10x128.Slices ![o, 0] S1x128) (pb : Vec Ideal S128x128 .f32)
    (k n : Fin 128) (d : Fin 10) (hd : d.val = o) :
    term xt ![o, 0] hs pb (ix2 k n) = adiff (pb (ix2 k n)) (xt (ix2 d n)) := by
  have e2 : broadcastTo S128x128 (extractStridedSlice S1x128 ![o, 0] xt hs) broadcasts_S1x128_S128x128 (ix2 k n) = xt (ix2 d n) :=
    (broadcastTo_1b_ab_apply _ _ k n).trans (slice2_axis0_apply o xt hs (0 : Fin 1) n d (by rw [hd]; rfl))
  unfold term adiff
  rw [shapeCast_self]
  show max (pb (ix2 k n) - _) (-(pb (ix2 k n) - _)) = _
  rw [e2]

/-- The same over the chunk itself: row d of the transpose at lane n is the chunk's entry (n, d); and with the slab's
    entry named. -/
theorem term_point (xc : Vec Ideal S128x10 .f32) (o : ℕ) (hs : S10x128.Slices ![o, 0] S1x128) (pb : Vec Ideal S128x128 .f32)
    (k n : Fin 128) (d : Fin 10) (hd : d.val = o) (v : EReal) (hp : pb (ix2 k n) = v) :
    term (transpose S10x128 [1, 0] xc transposes_S128x10_p1_0_S10x128) ![o, 0] hs pb (ix2 k n) = adiff v (xc (ix2 n d)) := by
  rw [term_apply _ o hs pb k n d hd, hp, transpose_ix2_apply]

/-- THE CHUNK AT AN INDEX. When slab d of the table holds grid point k's d-th coordinate at (k, any lane) (`pv k d`), the
    stored value at (n, j) is Σ_k exp(−Σ_d |pv k d − xc(n, d)|) · c(k, j): the matrix product into a zero accumulator is
    the plain sum over the contracted axis, zero minus a value is its negation, and the ten slabs added left to right
    are the sum over d. -/
theorem chunk_apply (c : Vec Ideal S128x128 .f32) (xc : Vec Ideal S128x10 .f32) (p0 p1 p2 p3 p4 p5 p6 p7 p8 p9 : Vec Ideal S128x128 .f32)
    (pv : Fin 128 → Fin 10 → EReal)
    (h0 : ∀ k n : Fin 128, p0 (ix2 k n) = pv k ⟨0, by decide⟩)
    (h1 : ∀ k n : Fin 128, p1 (ix2 k n) = pv k ⟨1, by decide⟩)
    (h2 : ∀ k n : Fin 128, p2 (ix2 k n) = pv k ⟨2, by decide⟩)
    (h3 : ∀ k n : Fin 128, p3 (ix2 k n) = pv k ⟨3, by decide⟩)
    (h4 : ∀ k n : Fin 128, p4 (ix2 k n) = pv k ⟨4, by decide⟩)
    (h5 : ∀ k n : Fin 128, p5 (ix2 k n) = pv k ⟨5, by decide⟩)
    (h6 : ∀ k n : Fin 128, p6 (ix2 k n) = pv k ⟨6, by decide⟩)
    (h7 : ∀ k n : Fin 128, p7 (ix2 k n) = pv k ⟨7, by decide⟩)
    (h8 : ∀ k n : Fin 128, p8 (ix2 k n) = pv k ⟨8, by decide⟩)
    (h9 : ∀ k n : Fin 128, p9 (ix2 k n) = pv k ⟨9, by decide⟩)
    (n j : Fin 128) :
    chunk c xc p0 p1 p2 p3 p4 p5 p6 p7 p8 p9 (ix2 n j)
      = ∑ k : Fin 128, Ideal.exp (-(∑ d : Fin 10, adiff (pv k d) (xc (ix2 n d)))) * c (ix2 k j) := by
  unfold chunk
  simp only [matmul]
  rw [Ideal.matmul_constant_zero_apply, ← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have el : dot_S128x128_S128x128_S128x128_0_0_1_1_n_n.lhsIdx (ix2 n j) ((contrEquiv1 dot_S128x128_S128x128_S128x128_0_0_1_1_n_n 128 rfl rfl).symm k) = ix2 k n := funext fun a => Fin.ext (by
    match a with
    | ⟨0, _⟩ => exact (lhs_axis0 _ _).trans hk
    | ⟨1, _⟩ => exact lhs_axis1 _ _)
  have er : dot_S128x128_S128x128_S128x128_0_0_1_1_n_n.rhsIdx (ix2 n j) ((contrEquiv1 dot_S128x128_S128x128_S128x128_0_0_1_1_n_n 128 rfl rfl).symm k) = ix2 k j := funext fun a => Fin.ext (by
    match a with
    | ⟨0, _⟩ => exact (rhs_axis0 _ _).trans hk
    | ⟨1, _⟩ => exact rhs_axis1 _ _)
  rw [el, er]
  congr 1
  show Ideal.exp (Ideal.ofBits .f32 0x00000000#32 - _) = _
  rw [Ideal.ofBits_zero_f32, zero_sub']
  congr 2
  refine Eq.trans ?_ (sum_ten _)
  simp only [addf_apply]
  rw [term_point xc 0 slices_S10x128_o0_0_S1x128 p0 k n ⟨0, by decide⟩ rfl _ (h0 k n),
    term_point xc 1 slices_S10x128_o1_0_S1x128 p1 k n ⟨1, by decide⟩ rfl _ (h1 k n),
    term_point xc 2 slices_S10x128_o2_0_S1x128 p2 k n ⟨2, by decide⟩ rfl _ (h2 k n),
    term_point xc 3 slices_S10x128_o3_0_S1x128 p3 k n ⟨3, by decide⟩ rfl _ (h3 k n),
    term_point xc 4 slices_S10x128_o4_0_S1x128 p4 k n ⟨4, by decide⟩ rfl _ (h4 k n),
    term_point xc 5 slices_S10x128_o5_0_S1x128 p5 k n ⟨5, by decide⟩ rfl _ (h5 k n),
    term_point xc 6 slices_S10x128_o6_0_S1x128 p6 k n ⟨6, by decide⟩ rfl _ (h6 k n),
    term_point xc 7 slices_S10x128_o7_0_S1x128 p7 k n ⟨7, by decide⟩ rfl _ (h7 k n),
    term_point xc 8 slices_S10x128_o8_0_S1x128 p8 k n ⟨8, by decide⟩ rfl _ (h8 k n),
    term_point xc 9 slices_S10x128_o9_0_S1x128 p9 k n ⟨9, by decide⟩ rfl _ (h9 k n)]
  rfl

end AtIdeal

end Cert.KernelIdeal.Hand

end
-- ==== Proof.PtsTable.lean ====
/-
  The grid-point table the region finds in its second window.

  Before the region, @main transposes the grid points p : [128, 10] to [10, 128], adds a unit axis, spreads it to
  [10, 128, 128] along a new last axis, and reshapes to [1280, 128]: row d·128 + k of the table holds, in EVERY lane, grid
  point k's d-th coordinate p(k, d). (So slab d of the table, rows d·128 … d·128 + 127, is the column d of p spread along
  the lanes.)
-/
import proofs.«122928_g10067403342211_week1_w1_198_12_alg».proof.Proof.Gen.KernelIdeal.Frame
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The table as the region finds it: the host operations' composed term of the grid points as launched. -/
theorem table_eq (c : Dev nD) : (V m c main_v3 : S1280x128.Idx → Elt F .f32)
    = shapeCast S1280x128 (broadcastInDim S10x128x128 ![0, 1, 2] bcast_S10x128x1_S10x128x128_0_1_2
        (broadcastInDim S10x128x1 ![0, 1] bcast_S10x128_S10x128x1_0_1
          (transpose S10x128 [1, 0] (m ((c : Thread nD τ).loc main_arg1)) transposes_S128x10_S10x128_1_0)))
        shapeCasts_S10x128x128_S1280x128 := by
  dsimp only [V, hostOps0]
  after_results
  rfl

/-- Row d·128 + k of the table, at any lane, is p(k, d). -/
theorem table_apply (c : Dev nD) (d : Fin 10) (k lane : Fin 128) (r : Fin 1280) (hr : r.val = d.val * 128 + k.val) :
    (V m c main_v3 : S1280x128.Idx → Elt F .f32) (ix2 r lane)
      = (m ((c : Thread nD τ).loc main_arg1) : S128x10.Idx → Elt F .f32) (ix2 k d) := by
  rw [table_eq]
  refine (shapeCast_apply _ _ (ix2 r lane) (ix3 d k lane) ?_).trans ?_
  · rw [Shape.rowMajor_val_three, Shape.rowMajor_val_two]
    show (d.val * 128 + k.val) * 128 + lane.val = r.val * 128 + lane.val
    rw [hr]
  refine (broadcastInDim_apply _ _ _ (ix3 d k lane) (ix3 d k (0 : Fin 1)) (fun a => ?_)).trans ?_
  · match a with
    | ⟨0, _⟩ => show d.val = if (10 : Nat) = 1 then 0 else d.val; rw [if_neg (by decide)]
    | ⟨1, _⟩ => show k.val = if (128 : Nat) = 1 then 0 else k.val; rw [if_neg (by decide)]
    | ⟨2, _⟩ => show 0 = if (1 : Nat) = 1 then 0 else lane.val; rw [if_pos rfl]
  refine (broadcastInDim_apply _ _ _ (ix3 d k (0 : Fin 1)) (ix2 d k) (fun a => ?_)).trans ?_
  · match a with
    | ⟨0, _⟩ => show d.val = if (10 : Nat) = 1 then 0 else d.val; rw [if_neg (by decide)]
    | ⟨1, _⟩ => show k.val = if (128 : Nat) = 1 then 0 else k.val; rw [if_neg (by decide)]
  exact transpose_ix2_apply _ _ d k

end Cert.KernelIdeal.Hand

end
-- ==== Proof.Final.lean ====
/-
  From the body's stores to the whole result array.

  At grid point t the pipeline hands the body rows 1024·t … 1024·t + 1023 of x, the whole grid-point table and the whole
  matrix c; the body's eight stores tile the [1024, 128] output block, rows 128·j … 128·j + 127 holding `chunk` of the
  j-th 128 rows of the x block. So every entry (a, j) of the block is Σ_k exp(−Σ_d |p(k,d) − x(1024·t + a, d)|) · c(k, j)
  (`block_apply`), which is entry (1024·t + a, j) of G by the symmetry of the absolute difference (`flushed_eq`). The 128
  points' blocks tile the [131072, 128] result (row i belongs to point i / 1024), so the array ends holding G (`final`),
  and the frame run, re-posted, is the kernel's run to G with its arguments unchanged (`run`).
-/
import proofs.«122928_g10067403342211_week1_w1_198_12_alg».proof.Proof.Gen.KernelIdeal.Value
import proofs.«122928_g10067403342211_week1_w1_198_12_alg».proof.Proof.Chunk
import proofs.«122928_g10067403342211_week1_w1_198_12_alg».proof.Proof.PtsTable

noncomputable section

namespace Cert.KernelIdeal.Hand

open Cert.KernelIdeal Cert.KernelIdeal.Gen Cert.KernelIdeal.Value Idealize.ShloMosaic Idealize.ShloMosaic.TcCoe
open Idealize.ShloMosaic.ValueIdx Idealize.SL.Sem Cert.Laplace
open Idealize.ShloMosaic.Pipeline (Dat)

/-! ## The body's output block at an index, over any input blocks -/

/-- A load of `r` rows from row `o` of a matrix reads, at (a, b), the matrix at (o + a, b). -/
theorem ld_rows {R C r : ℕ} (X : (⟨2, ![R, C]⟩ : Shape).Idx → Elt Ideal .f32) (o : ℕ)
    (inb : ∀ a, (![o, 0] : Fin 2 → Nat) a + (⟨2, ![r, C]⟩ : Shape).size a ≤ (⟨2, ![R, C]⟩ : Shape).size a)
    (a : Fin r) (b : Fin C) (k : Fin R) (hk : k.val = o + a.val) :
    View.ld X (Rect.unit (s := ⟨2, ![R, C]⟩) ![o, 0] (⟨2, ![r, C]⟩ : Shape).size inb) (ix2 a b) = X (ix2 k b) := by
  show X _ = X _
  congr 1
  funext ax
  apply Fin.ext
  match ax with
  | ⟨0, _⟩ => show o + 1 * a.val = k.val; omega
  | ⟨1, _⟩ => show 0 + 1 * b.val = b.val; omega

/-- What the block holds at (a, j) when the table's row d·128 + k is `pv k d` in every lane. -/
def blockG (X : Vec Ideal S1024x10 .f32) (C : Vec Ideal S128x128 .f32) (pv : Fin 128 → Fin 10 → EReal) : Vec Ideal S1024x128 .f32 :=
  fun y => ∑ k : Fin 128, Ideal.exp (-(∑ d : Fin 10, adiff (pv k d) (X (ix2 (y 0) d)))) * C (ix2 k (y 1))

/-- The chunk of the 128 rows from row `o` of the x block, at (n, j): entry (o + n, j) of `blockG`. -/
theorem chunk_rows (X : Vec Ideal S1024x10 .f32) (T : Vec Ideal S1280x128 .f32) (C : Vec Ideal S128x128 .f32)
    (pv : Fin 128 → Fin 10 → EReal)
    (hT : ∀ (d : Fin 10) (k lane : Fin 128) (r : Fin 1280), r.val = d.val * 128 + k.val → T (ix2 r lane) = pv k d)
    (o : ℕ) (inbx : ∀ a, (![o, 0] : Fin 2 → Nat) a + S128x10.size a ≤ S1024x10.size a)
    (n jj : Fin 128) (row : Fin 1024) (col : Fin 128) (hrow : row.val = o + n.val) (hcol : col.val = jj.val) :
    chunk (View.ld C r0_0) (View.ld X (Rect.unit (s := S1024x10) ![o, 0] S128x10.size inbx)) (View.ld T r0_2) (View.ld T r0_3) (View.ld T r0_4) (View.ld T r0_5) (View.ld T r0_6) (View.ld T r0_7) (View.ld T r0_8) (View.ld T r0_9) (View.ld T r0_10) (View.ld T r0_11) (ix2 n jj)
      = ∑ k : Fin 128, Ideal.exp (-(∑ d : Fin 10, adiff (pv k d) (X (ix2 row d)))) * C (ix2 k col) := by
  obtain rfl : col = jj := Fin.ext hcol
  have hx : ∀ d : Fin 10, View.ld X (Rect.unit (s := S1024x10) ![o, 0] S128x10.size inbx) (ix2 n d) = X (ix2 row d) :=
    fun d => ld_rows X o inbx n d row hrow
  have hc : ∀ k : Fin 128, View.ld C r0_0 (ix2 k col) = C (ix2 k col) :=
    fun k => ld_rows C 0 inb_S128x128_S128x128_0_0 k col k (by omega)
  rw [chunk_apply _ _ _ _ _ _ _ _ _ _ _ _ pv
      (fun k n => (ld_rows T 0 inb_S1280x128_S128x128_0_0 k n ⟨0 + k.val, by omega⟩ rfl).trans (hT ⟨0, by decide⟩ k n _ rfl))
      (fun k n => (ld_rows T 128 inb_S1280x128_S128x128_128_0 k n ⟨128 + k.val, by omega⟩ rfl).trans (hT ⟨1, by decide⟩ k n _ rfl))
      (fun k n => (ld_rows T 256 inb_S1280x128_S128x128_256_0 k n ⟨256 + k.val, by omega⟩ rfl).trans (hT ⟨2, by decide⟩ k n _ rfl))
      (fun k n => (ld_rows T 384 inb_S1280x128_S128x128_384_0 k n ⟨384 + k.val, by omega⟩ rfl).trans (hT ⟨3, by decide⟩ k n _ rfl))
      (fun k n => (ld_rows T 512 inb_S1280x128_S128x128_512_0 k n ⟨512 + k.val, by omega⟩ rfl).trans (hT ⟨4, by decide⟩ k n _ rfl))
      (fun k n => (ld_rows T 640 inb_S1280x128_S128x128_640_0 k n ⟨640 + k.val, by omega⟩ rfl).trans (hT ⟨5, by decide⟩ k n _ rfl))
      (fun k n => (ld_rows T 768 inb_S1280x128_S128x128_768_0 k n ⟨768 + k.val, by omega⟩ rfl).trans (hT ⟨6, by decide⟩ k n _ rfl))
      (fun k n => (ld_rows T 896 inb_S1280x128_S128x128_896_0 k n ⟨896 + k.val, by omega⟩ rfl).trans (hT ⟨7, by decide⟩ k n _ rfl))
      (fun k n => (ld_rows T 1024 inb_S1280x128_S128x128_1024_0 k n ⟨1024 + k.val, by omega⟩ rfl).trans (hT ⟨8, by decide⟩ k n _ rfl))
      (fun k n => (ld_rows T 1152 inb_S1280x128_S128x128_1152_0 k n ⟨1152 + k.val, by omega⟩ rfl).trans (hT ⟨9, by decide⟩ k n _ rfl))
      n col]
  simp only [hx, hc]

/-- THE BLOCK AT AN INDEX: the eight stores tile the block, and each holds `blockG` on its rows. -/
theorem block_apply (X : Vec Ideal S1024x10 .f32) (T : Vec Ideal S1280x128 .f32) (C : Vec Ideal S128x128 .f32)
    (pv : Fin 128 → Fin 10 → EReal)
    (hT : ∀ (d : Fin 10) (k lane : Fin 128) (r : Fin 1280), r.val = d.val * 128 + k.val → T (ix2 r lane) = pv k d)
    (y : S1024x128.Idx) : out0_3 X T C y = blockG X C pv y := by
  unfold out0_3
  refine View.canon_apply_of_pieces (Val := Elt Ideal) (blockG X C pv) _ (fun p hp x => ?_) y (cover0_3 _ _ _ _ _ _ _ _ y)
  simp only [List.mem_cons, List.mem_nil_iff, or_false] at hp
  rcases hp with rfl | rfl | rfl | rfl | rfl | rfl | rfl | rfl
  · obtain ⟨n, jj, rfl⟩ : ∃ (n jj : Fin 128), x = ix2 n jj := ⟨x 0, x 1, eq_ix2 x⟩
    refine (congrFun (stored7 _ _ _ _ _ _ _ _ _ _ _ _) _).trans ?_
    exact chunk_rows X T C pv hT 896 inb_S1024x10_S128x10_896_0 n jj _ _
      (show 896 + 1 * n.val = 896 + n.val by omega) (show 0 + 1 * jj.val = jj.val by omega)
  · obtain ⟨n, jj, rfl⟩ : ∃ (n jj : Fin 128), x = ix2 n jj := ⟨x 0, x 1, eq_ix2 x⟩
    refine (congrFun (stored6 _ _ _ _ _ _ _ _ _ _ _ _) _).trans ?_
    exact chunk_rows X T C pv hT 768 inb_S1024x10_S128x10_768_0 n jj _ _
      (show 768 + 1 * n.val = 768 + n.val by omega) (show 0 + 1 * jj.val = jj.val by omega)
  · obtain ⟨n, jj, rfl⟩ : ∃ (n jj : Fin 128), x = ix2 n jj := ⟨x 0, x 1, eq_ix2 x⟩
    refine (congrFun (stored5 _ _ _ _ _ _ _ _ _ _ _ _) _).trans ?_
    exact chunk_rows X T C pv hT 640 inb_S1024x10_S128x10_640_0 n jj _ _
      (show 640 + 1 * n.val = 640 + n.val by omega) (show 0 + 1 * jj.val = jj.val by omega)
  · obtain ⟨n, jj, rfl⟩ : ∃ (n jj : Fin 128), x = ix2 n jj := ⟨x 0, x 1, eq_ix2 x⟩
    refine (congrFun (stored4 _ _ _ _ _ _ _ _ _ _ _ _) _).trans ?_
    exact chunk_rows X T C pv hT 512 inb_S1024x10_S128x10_512_0 n jj _ _
      (show 512 + 1 * n.val = 512 + n.val by omega) (show 0 + 1 * jj.val = jj.val by omega)
  · obtain ⟨n, jj, rfl⟩ : ∃ (n jj : Fin 128), x = ix2 n jj := ⟨x 0, x 1, eq_ix2 x⟩
    refine (congrFun (stored3 _ _ _ _ _ _ _ _ _ _ _ _) _).trans ?_
    exact chunk_rows X T C pv hT 384 inb_S1024x10_S128x10_384_0 n jj _ _
      (show 384 + 1 * n.val = 384 + n.val by omega) (show 0 + 1 * jj.val = jj.val by omega)
  · obtain ⟨n, jj, rfl⟩ : ∃ (n jj : Fin 128), x = ix2 n jj := ⟨x 0, x 1, eq_ix2 x⟩
    refine (congrFun (stored2 _ _ _ _ _ _ _ _ _ _ _ _) _).trans ?_
    exact chunk_rows X T C pv hT 256 inb_S1024x10_S128x10_256_0 n jj _ _
      (show 256 + 1 * n.val = 256 + n.val by omega) (show 0 + 1 * jj.val = jj.val by omega)
  · obtain ⟨n, jj, rfl⟩ : ∃ (n jj : Fin 128), x = ix2 n jj := ⟨x 0, x 1, eq_ix2 x⟩
    refine (congrFun (stored1 _ _ _ _ _ _ _ _ _ _ _ _) _).trans ?_
    exact chunk_rows X T C pv hT 128 inb_S1024x10_S128x10_128_0 n jj _ _
      (show 128 + 1 * n.val = 128 + n.val by omega) (show 0 + 1 * jj.val = jj.val by omega)
  · obtain ⟨n, jj, rfl⟩ : ∃ (n jj : Fin 128), x = ix2 n jj := ⟨x 0, x 1, eq_ix2 x⟩
    refine (congrFun (stored0 _ _ _ _ _ _ _ _ _ _ _ _) _).trans ?_
    exact chunk_rows X T C pv hT 0 inb_S1024x10_S128x10_0_0 n jj _ _
      (show 0 + 1 * n.val = 0 + n.val by omega) (show 0 + 1 * jj.val = jj.val by omega)

/-! ## What each grid point writes back, and the whole array -/

variable (m : (ℓ : Loc nD τ sig) → Buf (Elt Ideal) ℓ) (ρ : Dev nD → PrngReg)

/-- The windows' block indices at point t, decided over the 128 points: the x window and the result window move with t
    along the rows; the table and c are taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three argument arrays as launched, and the three input blocks at a point, at their literal types. -/
abbrev xarr (c : Dev nD) : Vec Ideal S131072x10 .f32 := m ((c : Thread nD τ).loc main_arg0)
abbrev parr (c : Dev nD) : Vec Ideal S128x10 .f32 := m ((c : Thread nD τ).loc main_arg1)
abbrev carr (c : Dev nD) : Vec Ideal S128x128 .f32 := m ((c : Thread nD τ).loc main_arg2)
abbrev xblk (c : Dev nD) (t : Fin cfg0.N) : Vec Ideal S1024x10 .f32 := iblk m c 0 t
abbrev tblk (c : Dev nD) (t : Fin cfg0.N) : Vec Ideal S1280x128 .f32 := iblk m c 1 t
abbrev cblk (c : Dev nD) (t : Fin cfg0.N) : Vec Ideal S128x128 .f32 := iblk m c 2 t

/-- The x block at point t is rows 1024·t … of x. -/
theorem xblk_apply (c : Dev nD) (t : Fin cfg0.N) (a : Fin 1024) (d : Fin 10) (row : Fin 131072)
    (hrow : row.val = t.val * 1024 + a.val) : xblk m c t (ix2 a d) = xarr m c (ix2 row d) := by
  obtain ⟨e0, e1, -⟩ := idx_facts t
  show iblk m c 0 t (ix2 a d) = _
  unfold iblk
  rw [View.read_apply]
  show V m c main_arg0 _ = _
  rw [V_main_arg0]
  show m ((c : Thread nD τ).loc main_arg0) _ = m ((c : Thread nD τ).loc main_arg0) _
  congr 1
  funext ax
  apply Fin.ext
  match ax with
  | ⟨0, _⟩ => show win0_0.index t (0 : Fin 2) * 1024 + 1 * a.val = row.val; rw [e0, hrow]; omega
  | ⟨1, _⟩ => show win0_0.index t (1 : Fin 2) * 10 + 1 * d.val = d.val; rw [e1]; omega

/-- The table block at any point is the whole table as the region finds it. -/
theorem tblk_apply (c : Dev nD) (t : Fin cfg0.N) (r : Fin 1280) (lane : Fin 128) :
    tblk m c t (ix2 r lane) = (V m c main_v3 : S1280x128.Idx → Elt Ideal .f32) (ix2 r lane) := by
  obtain ⟨-, -, e2, e3, -⟩ := idx_facts t
  show iblk m c 1 t (ix2 r lane) = _
  unfold iblk
  rw [View.read_apply]
  show V m c main_v3 _ = V m c main_v3 _
  congr 1
  funext ax
  apply Fin.ext
  match ax with
  | ⟨0, _⟩ => show win0_1.index t (0 : Fin 2) * 1280 + 1 * r.val = r.val; rw [e2]; omega
  | ⟨1, _⟩ => show win0_1.index t (1 : Fin 2) * 128 + 1 * lane.val = lane.val; rw [e3]; omega

/-- The c block at any point is the whole of c. -/
theorem cblk_apply (c : Dev nD) (t : Fin cfg0.N) (k j col : Fin 128) (hcol : col.val = j.val) :
    cblk m c t (ix2 k j) = carr m c (ix2 k col) := by
  obtain ⟨-, -, -, -, e4, e5, -⟩ := idx_facts t
  show iblk m c 2 t (ix2 k j) = _
  unfold iblk
  rw [View.read_apply]
  show V m c main_arg2 _ = _
  rw [V_main_arg2]
  show m ((c : Thread nD τ).loc main_arg2) _ = m ((c : Thread nD τ).loc main_arg2) _
  congr 1
  funext ax
  apply Fin.ext
  match ax with
  | ⟨0, _⟩ => show win0_2.index t (0 : Fin 2) * 128 + 1 * k.val = k.val; rw [e4]; omega
  | ⟨1, _⟩ => show win0_2.index t (1 : Fin 2) * 128 + 1 * j.val = col.val; rw [e5, hcol]; omega

/-- WHAT POINT t WRITES BACK is block t of G of the three arguments: `block_apply` at the point's input blocks, the table's
    rows read as grid-point coordinates, and |p − x| = |x − p|. -/
theorem flushed_eq (c : Dev nD) (t : Fin cfg0.N) :
    (dats m 0 c).flushed 3 t = ((cfg0.win 3).blk t).view.read (Elt Ideal) (G (xarr m c) (parr m c) (carr m c)) := by
  rw [flushed3]
  refine funext fun (y : S1024x128.Idx) => ?_
  obtain ⟨-, -, -, -, -, -, e6, e7⟩ := idx_facts t
  show out0_3 (xblk m c t) (tblk m c t) (cblk m c t) y = G (xarr m c) (parr m c) (carr m c) (((cfg0.win 3).blk t).view.emb y)
  refine (block_apply (xblk m c t) (tblk m c t) (cblk m c t) (fun k d => parr m c (ix2 k d))
    (fun d k lane r hr => (tblk_apply m c t r lane).trans (table_apply m c d k lane r hr)) y).trans ?_
  have hr0 : ((((cfg0.win 3).blk t).view.emb y) 0).val = t.val * 1024 + (y 0).val := by
    show win0_3.index t (0 : Fin 2) * 1024 + 1 * (y 0).val = _
    rw [e6]; omega
  have hr1 : ((((cfg0.win 3).blk t).view.emb y) 1).val = (y 1).val := by
    show win0_3.index t (1 : Fin 2) * 128 + 1 * (y 1).val = _
    rw [e7]; omega
  unfold blockG G l1dist
  refine Finset.sum_congr rfl fun k _ => ?_
  refine congrArg₂ (· * ·) (congrArg Ideal.exp (congrArg Neg.neg (Finset.sum_congr rfl fun d _ => ?_))) ?_
  · rw [xblk_apply m c t (y 0) d _ hr0, adiff_comm]
  · exact cblk_apply m c t k (y 1) _ hr1

/-- An index of the result is in point t's block iff each coordinate is in the block's range on its axis. -/
theorem mem_blk (t : Fin cfg0.N) (i : S131072x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v4).slice (win0_3.rect t)).set ↔ _
  rw [View.set_slice_whole, Rect.mem_set_unit]
  exact Iff.rfl

/-- Every index of the result is in some point's block: row i belongs to point i / 1024. -/
theorem cover (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 128 := N_0
  have ht : (i 0).val / 1024 < cfg0.N := by rw [hN]; omega
  refine ⟨⟨(i 0).val / 1024, ht⟩, flush0_3 _, ?_⟩
  obtain ⟨-, -, -, -, -, -, e6, e7⟩ := idx_facts ⟨(i 0).val / 1024, ht⟩
  rw [mem_blk]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e6]
    show (i 0).val / 1024 * 1024 ≤ (i 0).val ∧ (i 0).val < (i 0).val / 1024 * 1024 + 1024
    omega
  | ⟨1, _⟩ =>
    show win0_3.index ⟨(i 0).val / 1024, ht⟩ (1 : Fin 2) * 128 ≤ (i 1).val ∧ (i 1).val < win0_3.index ⟨(i 0).val / 1024, ht⟩ (1 : Fin 2) * 128 + 128
    rw [e7]
    omega

/-- THE RESULT ARRAY after the run is G of the three arguments as launched. -/
theorem final (c : Dev nD) : (dats m 0 c).arrAt 3 cfg0.N = G (xarr m c) (parr m c) (carr m c) :=
  (dats m 0 c).arrAt_eq_of_cover 3 (G (xarr m c) (parr m c) (carr m c)) (fun t _ => flushed_eq m c t) cover

/-- The kernel's run, read: every weakly fair execution ends with the result at G of the arguments and the arguments
    unchanged. -/
theorem run : θ_run defs (onTc (τ := τ) (main (F := Ideal))) ⟨m, fun _ => 0, ρ⟩ fun r => ∀ c : Dev nD,
      r.2.mem ((c : Thread nD τ).loc main_v4) = G (xarr m c) (parr m c) (carr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefValue.lean ====
/-
  The reference computes G.

  Its host program spreads x and p to [131072, 128, 10], subtracts (x − p), takes absolute values, sums over the last
  axis from the initial value 0, negates, divides by the literal 1.0, exponentiates, and multiplies by c with a
  dot_general contracting the kernel matrix's second axis with c's first. Read one operation at a time at an index
  (the generated read-at-an-index lemmas), entry (n, j) is Σ_k exp((−(0 + Σ_d |x(n,d) − p(k,d)|)) / 1) · c(k, j); adding
  to zero and dividing by one change nothing, so it is G x p c (n, j).
-/
import proofs.«122928_g10067403342211_week1_w1_198_12_alg».proof.Proof.Gen.ReferenceIdeal.Read
import proofs.«122928_g10067403342211_week1_w1_198_12_alg».proof.Proof.Spec

noncomputable section

namespace Cert.ReferenceIdeal.Hand

open Cert.ReferenceIdeal Cert.ReferenceIdeal.Read Idealize.ShloMosaic Idealize.ShloMosaic.ValueIdx Cert.Laplace

/-- The summed stage at (n, k) is the L1 distance between row n of x and row k of p. -/
theorem dist_stage (x : S131072x10.Idx → EReal) (p : S128x10.Idx → EReal) (i : S131072x128.Idx) :
    val_main_v6 (F := Ideal) x p i = l1dist x p (i 0) (i 1) := by
  rw [val_main_v6_apply, val_main_cst_apply, Ideal.ofBits_def, Ideal.ofBits_zero_f32, zero_add]
  unfold l1dist
  refine Finset.sum_congr rfl fun d _ => ?_
  have ex : idx_main_v0 (idx_main_v2 (idx_main_v6 i d)) = ix2 (i 0) d := funext fun a => Fin.ext (by
    match a with | ⟨0, _⟩ => rfl | ⟨1, _⟩ => rfl)
  have ep : idx_main_v1 (idx_main_v3 (idx_main_v6 i d)) = ix2 (i 1) d := funext fun a => Fin.ext (by
    match a with | ⟨0, _⟩ => rfl | ⟨1, _⟩ => rfl)
  rw [val_main_v5_apply, val_main_v4_apply, val_main_v2_apply, val_main_v0_apply, val_main_v3_apply, val_main_v1_apply, ex, ep]
  rfl

/-- The reference's result stage is G of its three arguments. -/
theorem ref_eq (x : S131072x10.Idx → EReal) (p : S128x10.Idx → EReal) (c : S128x128.Idx → EReal) :
    val_main_v11 (F := Ideal) x p c = G x p c := by
  funext i
  rw [val_main_v11_apply]
  unfold G
  refine Finset.sum_congr rfl fun k _ => ?_
  have er : ridx_main_v11 i k = ix2 k (i 1) := funext fun a => Fin.ext (by
    match a with | ⟨0, _⟩ => rfl | ⟨1, _⟩ => rfl)
  rw [er, val_main_v10_apply, val_main_v9_apply, val_main_v7_apply, val_main_v8_apply, val_main_cst_0_apply, dist_stage]
  show Ideal.exp (Ideal.div (-(l1dist x p ((lidx_main_v11 i k) 0) ((lidx_main_v11 i k) 1))) (Ideal.ofBits .f32 0x3F800000#32)) * _ = _
  rw [div_one]
  rfl

end Cert.ReferenceIdeal.Hand

end
-- ==== Proof.lean ====
/-
  Kernel and reference compute the same array over the extended reals.

  The kernel: for each block of 1024 points and each 128-row chunk of it, the Laplace product kernel against the 128 grid
  points is built TRANSPOSED, entry (k, n) = exp(−Σ_d |p(k,d) − x(n,d)|) from a lane-replicated table of the grid points'
  coordinates, and contracted on its first axis with c. The reference: exp(−(Σ_d |x(n,d) − p(k,d)|) / 1) as an
  [131072, 128] matrix, times c. Both are

      G x p c (n, j) = Σ_k exp(−Σ_d |x(n,d) − p(k,d)|) · c(k, j)

  (Proof/Spec.lean). The kernel side: Proof/Chunk.lean (the body's eight stores are one chunk function; it at an index),
  Proof/PtsTable.lean (the table the host operations build), Proof/Final.lean (from the stores to the whole array, and the
  run). The reference side: Proof/RefValue.lean. The two meet by three laws that hold on ALL extended reals —
  |a − b| = |b − a|, the ten-term sum in any grouping, a / 1 = a — so the precondition is never opened.

  The three frames are the generated ones (the reference's is its run with the result dropped), and the idealization
  rewrote nothing, so its conjunct is trivial.
-/
import proofs.«122928_g10067403342211_week1_w1_198_12_alg».proof.Defs
import proofs.«122928_g10067403342211_week1_w1_198_12_alg».proof.Proof.Gen.Kernel
import proofs.«122928_g10067403342211_week1_w1_198_12_alg».proof.Proof.Gen.Kernel.Skeleton
import proofs.«122928_g10067403342211_week1_w1_198_12_alg».proof.Proof.Gen.Kernel.Launch
import proofs.«122928_g10067403342211_week1_w1_198_12_alg».proof.Proof.Gen.Kernel.Points
import proofs.«122928_g10067403342211_week1_w1_198_12_alg».proof.Proof.Gen.Kernel.Frame
import proofs.«122928_g10067403342211_week1_w1_198_12_alg».proof.Proof.Gen.KernelIdeal
import proofs.«122928_g10067403342211_week1_w1_198_12_alg».proof.Proof.Gen.KernelIdeal.Skeleton
import proofs.«122928_g10067403342211_week1_w1_198_12_alg».proof.Proof.Gen.KernelIdeal.Launch
import proofs.«122928_g10067403342211_week1_w1_198_12_alg».proof.Proof.Gen.KernelIdeal.Points
import proofs.«122928_g10067403342211_week1_w1_198_12_alg».proof.Proof.Gen.KernelIdeal.Frame
import proofs.«122928_g10067403342211_week1_w1_198_12_alg».proof.Proof.Gen.ReferenceIdeal
import proofs.«122928_g10067403342211_week1_w1_198_12_alg».proof.Proof.Gen.Pre_finite_inputs
import proofs.«122928_g10067403342211_week1_w1_198_12_alg».proof.Proof.Gen.KernelIdeal.Value
import proofs.«122928_g10067403342211_week1_w1_198_12_alg».proof.Proof.Gen.ReferenceIdeal.Run
import proofs.«122928_g10067403342211_week1_w1_198_12_alg».proof.Proof.Gen.ReferenceIdeal.Read
import proofs.«122928_g10067403342211_week1_w1_198_12_alg».proof.Proof.Final
import proofs.«122928_g10067403342211_week1_w1_198_12_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with G of the (agreeing) arguments: the kernel by its run read block by block, the reference by
    its run read operation by operation. -/
theorem algebraic : Cert.algebraic_KernelIdeal_ReferenceIdeal := by
  intro m ρ m' ρ' _ hagree
  refine ⟨fun c => Cert.Laplace.G (Cert.KernelIdeal.Hand.xarr m c) (Cert.KernelIdeal.Hand.parr m c) (Cert.KernelIdeal.Hand.carr m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.ReferenceIdeal.Hand.ref_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
